-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_keep" .f32 0x3FA00000#32 ((16777216 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S100000x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S100000x128 .f32 := Host.absf main_arg4
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128x128 .f32) (main_arg3 : FVec F S128x128 .f32) (main_arg4 : FVec F S100000x128 .f32) (main_arg5 : IVec S600000 32) (main_arg6 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S600000 : Shape := ⟨1, ![600000]⟩
abbrev S100000x384 : Shape := ⟨2, ![100000, 384]⟩
abbrev S4000x128 : Shape := ⟨2, ![4000, 128]⟩
abbrev S4000x384 : Shape := ⟨2, ![4000, 384]⟩
abbrev S_ : Shape := ⟨0, ![]⟩
abbrev S600000x1 : Shape := ⟨2, ![600000, 1]⟩
abbrev S600000x128 : Shape := ⟨2, ![600000, 128]⟩
abbrev S5000x128 : Shape := ⟨2, ![5000, 128]⟩

abbrev nBuf : Space → Nat
  | .hbm => 38
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S100000x128, .f32⟩
  | .hbm, ⟨5, _⟩ => ⟨S600000, .i32⟩
  | .hbm, ⟨6, _⟩ => ⟨S600000, .i32⟩
  | .hbm, ⟨7, _⟩ => ⟨S100000x384, .f32⟩
  | .hbm, ⟨8, _⟩ => ⟨S100000x128, .f32⟩
  | .hbm, ⟨9, _⟩ => ⟨S100000x128, .f32⟩
  | .hbm, ⟨10, _⟩ => ⟨S100000x128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S600000x1, .i32⟩
  | .hbm, ⟨36, _⟩ => ⟨S100000x128, .f32⟩
  | .hbm, ⟨37, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x384, .f32⟩
  | .local _ .vmem, ⟨8, _⟩ => ⟨S4000x384, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  natLt_1_32 : 1 < 32
  inb_S4000x384_S4000x128_0_0 : ∀ a, (![0, 0] : Fin 2 → Nat) a + S4000x128.size a ≤ S4000x384.size a
  inb_S4000x384_S4000x128_0_128 : ∀ a, (![0, 128] : Fin 2 → Nat) a + S4000x128.size a ≤ S4000x384.size a
  inb_S4000x384_S4000x128_0_256 : ∀ a, (![0, 256] : Fin 2 → Nat) a + S4000x128.size a ≤ S4000x384.size a
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  dot_S4000x128_S128x128_S4000x128_1_0_0_1_n_n_wf : DotDims.WF S4000x128 S128x128 S4000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x384.size a ≤ S100000x384.size a
  hwx0_5 : ∀ i : grid0.Coords, EltTy.bits .f32 = 32 ∨ (Rect.block (s := S100000x384) S4000x384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4000x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S100000x128, .f32⟩
  | .hbm, ⟨5, _⟩ => ⟨S600000, .i32⟩
  | .hbm, ⟨6, _⟩ => ⟨S600000, .i32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S600000x128, .f32⟩
  | .hbm, ⟨26, _⟩ => ⟨S600000x128, .f32⟩
  | .hbm, ⟨27, _⟩ => ⟨S_, .f32⟩
  | .hbm, ⟨28, _⟩ => ⟨S100000x128, .f32⟩
  | .hbm, ⟨29, _⟩ => ⟨S100000x128, .i1⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S600000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  dot_S100000x128_S128x128_S100000x128_1_0_0_1_n_n_wf : DotDims.WF S100000x128 S128x128 S100000x128 [1] [0] [0] [1] [] []
  scatter_S100000x128_S600000x1_S600000x128_1_0_0_1_wf : ScatterDims.WF S100000x128 S600000x1 S600000x128 [1] [0] [0] 1

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.Spec.lean ====
/-
  The mathematics both programs compute, entry by entry, over the extended reals.

  * `rowsMul x w` is the matrix product of the node features with a 128×128 weight: entry `(r, c)` is
    `∑ k, x (r, k) * w (k, c)`.
  * The dropout scale of one entry `u` of `drop_u`. The kernel multiplies the keep bit `u < 0.8` (widened to 32 bits,
    read signed: 0 or 1) by its folded reciprocal, which the certificate's table names as exactly `1 / f32(0.8)`
    = 16777216 / 13421773. The reference reads the same bit unsigned and divides it by the literal `f32(0.8)`
    = 13421773 / 16777216. Dividing by a nonzero real is multiplying by its reciprocal on every extended real,
    so the two scales are one number (`keep_eq`).
  * `combine a b s` is `max ((a + b) + s, 0)` entry by entry.
  * `wide` lays three such products side by side in a 100000 × 384 array: columns 0–127 are `x · W_f`, columns
    128–255 are `x · W_b`, columns 256–383 are `x · W_s` times the kernel's dropout scale.
-/
import Idealize.ShloMosaic.PureOps.Ideal
import Idealize.ShloMosaic.PureOps.IdealRules
import Idealize.ShloMosaic.Lib.ValueIdx

noncomputable section

open scoped BigOperators

namespace Cert.MsgPass

open Idealize.ShloMosaic Idealize.ShloMosaic.ValueIdx

/-- Node features, and each product: 100000 rows of 128. -/
abbrev Nodes : Shape := ⟨2, ![100000, 128]⟩
/-- A weight matrix. -/
abbrev Wts : Shape := ⟨2, ![128, 128]⟩
/-- The three products side by side. -/
abbrev Wide : Shape := ⟨2, ![100000, 384]⟩

/-- Entry `(r, c)` of `x · w`. -/
def rowsMul (x : Nodes.Idx → EReal) (w : Wts.Idx → EReal) : Nodes.Idx → EReal :=
  fun i => ∑ k : Fin 128, x (ix2 (i 0) k) * w (ix2 k (i 1))

/-- The literal `0.8` both programs compare `drop_u` with (and the reference divides by). -/
abbrev keepProb : EReal := Ideal.ofBits .f32 0x3F4CCCCD#32

/-- The kernel's dropout scale of an entry `u`: the keep bit as a 32-bit word read signed, times the named reciprocal. -/
def keepKernel (κ : String → Option EReal) (u : EReal) : EReal :=
  ((((Ideal.cmp .olt u keepProb).setWidth 32).toInt : ℝ) : EReal)
    * Named.named (F := Ideal) κ "inv_keep" (φ := .f32) 0x3FA00000#32

/-- The reference's: the keep bit read unsigned, divided by the literal. -/
def keepRef (u : EReal) : EReal :=
  Ideal.div ((((Ideal.cmp .olt u keepProb).toNat : ℝ) : EReal)) keepProb

/-- The literal `0x3F4CCCCD` denotes the real 13421773 / 16777216 (the binary32 nearest 0.8). -/
theorem keepProb_eq : keepProb = ((13421773 / 16777216 : ℝ) : EReal) := by
  simp [keepProb, Ideal.ofBits, Ideal.ieee, -EReal.coe_mul]; norm_num

/-- One number: the signed and the unsigned reading of a zero-extended bit agree, and dividing by
    13421773 / 16777216 is multiplying by 16777216 / 13421773. -/
theorem keep_eq (κ : String → Option EReal) (hκ : κ "inv_keep" = some ((16777216 / 13421773 : ℝ) : EReal)) (u : EReal) :
    keepKernel κ u = keepRef u := by
  unfold keepKernel keepRef
  have hn : Named.named (F := Ideal) κ "inv_keep" (φ := .f32) 0x3FA00000#32 = ((16777216 / 13421773 : ℝ) : EReal) :=
    IdealRules.named_const.ideal_named_scalar _ _ _ _ hκ
  rw [hn, keepProb_eq, Ideal.div_coe (by norm_num : (13421773 / 16777216 : ℝ) ≠ 0)]
  generalize Ideal.cmp .olt u _ = b
  rcases BitVec.eq_zero_or_eq_one b with rfl | rfl
  · simp
  · have h1 : (((1#1 : BitVec 1).setWidth 32).toInt : ℝ) = 1 := by norm_num [show ((1#1 : BitVec 1).setWidth 32).toInt = 1 from by decide]
    have h2 : (((1#1 : BitVec 1)).toNat : ℝ) = 1 := by norm_num
    rw [h1, h2]
    congr 1
    norm_num

/-- The second call's result, entry by entry: the two aggregates and the self-loop term added in that grouping, then the
    maximum with the literal zero (the reference's `relu` is the same maximum with the same literal). -/
def combine (a b s : Nodes.Idx → EReal) : Nodes.Idx → EReal :=
  fun i => max ((a i + b i) + s i) (Ideal.ofBits .f32 0x00000000#32)

/-- The kernel's first call's result as one function of the five arrays it reads. -/
def wide (κ : String → Option EReal) (x : Nodes.Idx → EReal) (wf wb ws : Wts.Idx → EReal) (du : Nodes.Idx → EReal) :
    Wide.Idx → EReal := fun i =>
  if h : (i 1).val < 128 then rowsMul x wf (ix2 (i 0) (⟨(i 1).val, h⟩ : Fin 128))
  else if h2 : (i 1).val < 256 then rowsMul x wb (ix2 (i 0) (⟨(i 1).val - 128, by omega⟩ : Fin 128))
  else rowsMul x ws (ix2 (i 0) (⟨(i 1).val - 256, by have := (i 1).isLt; simp at this; omega⟩ : Fin 128))
    * keepKernel κ (du (ix2 (i 0) (⟨(i 1).val - 256, by have := (i 1).isLt; simp at this; omega⟩ : Fin 128)))

/-- Its three column bands, read at a node-array index. -/
theorem wide_band0 (κ) (x) (wf wb ws) (du) (r : Fin 100000) (c : Fin 128) :
    wide κ x wf wb ws du (ix2 r (⟨c.val, by omega⟩ : Fin 384)) = rowsMul x wf (ix2 r c) := by
  unfold wide
  split
  · rfl
  · rename_i hn; exact absurd (show ((ix2 r (⟨c.val, by omega⟩ : Fin 384)) 1).val < 128 from c.isLt) hn
theorem wide_band1 (κ) (x) (wf wb ws) (du) (r : Fin 100000) (c : Fin 128) :
    wide κ x wf wb ws du (ix2 r (⟨c.val + 128, by omega⟩ : Fin 384)) = rowsMul x wb (ix2 r c) := by
  have hc := c.isLt
  unfold wide
  split
  · rename_i h; exfalso
    have h' : c.val + 128 < 128 := h
    omega
  · split
    · exact congrArg (fun q : Fin 128 => rowsMul x wb (ix2 r q)) (Fin.ext (show c.val + 128 - 128 = c.val by omega))
    · rename_i _ hn; exfalso
      exact hn (show c.val + 128 < 256 by omega)
theorem wide_band2 (κ) (x) (wf wb ws) (du) (r : Fin 100000) (c : Fin 128) :
    wide κ x wf wb ws du (ix2 r (⟨c.val + 256, by omega⟩ : Fin 384))
      = rowsMul x ws (ix2 r c) * keepKernel κ (du (ix2 r c)) := by
  have hc := c.isLt
  unfold wide
  split
  · rename_i h; exfalso
    have h' : c.val + 256 < 128 := h
    omega
  · split
    · rename_i _ h; exfalso
      have h' : c.val + 256 < 256 := h
      omega
    · exact congrArg (fun q : Fin 128 => rowsMul x ws (ix2 r q) * keepKernel κ (du (ix2 r q)))
        (Fin.ext (show c.val + 256 - 256 = c.val by omega))

end Cert.MsgPass

end
-- ==== Proof.Region0.lean ====
/-
  The first call's result array, as one function of the arrays it reads.

  Grid point t (of 25) stages rows 4000·t … 4000·t + 3999 of x and of drop_u and the three whole weights, and its body
  stores three 4000 × 128 pieces side by side into its 4000 × 384 output block: x_blk · W_f, x_blk · W_b, and
  x_blk · W_s times the dropout scale of the drop_u block (the narrowing to bf16 before each product is the identity
  on extended reals, and a product into a zero accumulator is the plain sum over the contracted axis). The 25 blocks
  tile the 100000 × 384 array, so the array after the call is `Cert.MsgPass.wide` of the five arrays read.
-/
import proofs.«176956_j206158430367_1_alg».proof.Proof.Gen.KernelIdeal.Frame
import proofs.«176956_j206158430367_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the TensorCore's buffer contents when the call is entered
variable (V : (c : Dev nD) → (b : Ref sig .tc) → Buf (Elt Ideal) ((c : Thread nD τ).loc b))

/-- The product's left operand is read at row `i 0` … -/
theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator, at an entry: the sum over the contracted axis. -/
theorem matmul_zero_rows (x : FVec Ideal S4000x128 .bf16) (w : FVec Ideal S128x128 .bf16) (i : S4000x128.Idx) :
    (matmul (F := Ideal) dot_S4000x128_S128x128_S4000x128_1_0_0_1_n_n none x w (constant S4000x128 .f32 0x00000000#32) : FVec Ideal S4000x128 .f32) i
      = ∑ k : Fin 128, x (ix2 (i 0) k) * w (ix2 k (i 1)) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx i ((ValueIdx.contrEquiv1 dot_S4000x128_S128x128_S4000x128_1_0_0_1_n_n 128 rfl rfl).symm k) = ix2 (i 0) k := funext fun a => Fin.ext (by
    match a with
    | ⟨0, _⟩ => exact lhs_mm_0 _ _
    | ⟨1, _⟩ => exact (lhs_mm_1 _ _).trans hk)
  have er : dot_S4000x128_S128x128_S4000x128_1_0_0_1_n_n.rhsIdx i ((ValueIdx.contrEquiv1 dot_S4000x128_S128x128_S4000x128_1_0_0_1_n_n 128 rfl rfl).symm k) = ix2 k (i 1) := funext fun a => Fin.ext (by
    match a with
    | ⟨0, _⟩ => exact (rhs_mm_0 _ _).trans hk
    | ⟨1, _⟩ => exact rhs_mm_1 _ _)
  rw [el, er]
  rfl

/-- The first piece at an entry: row `i 0` of the block of x against column `i 1` of the weight. -/
theorem pay2_apply (x : Vec Ideal S4000x128 .f32) (w : Vec Ideal S128x128 .f32) (i : S4000x128.Idx) :
    k0_pay2 (F := Ideal) x w i = ∑ k : Fin 128, x (ix2 (i 0) k) * w (ix2 k (i 1)) := by
  unfold k0_pay2 k0_pay1
  exact matmul_zero_rows _ _ i
/-- The second piece is the same product. -/
theorem pay3_apply (x : Vec Ideal S4000x128 .f32) (w : Vec Ideal S128x128 .f32) (i : S4000x128.Idx) :
    k0_pay3 (F := Ideal) x w i = ∑ k : Fin 128, x (ix2 (i 0) k) * w (ix2 k (i 1)) := by
  unfold k0_pay3 k0_pay1
  exact matmul_zero_rows _ _ i
/-- The third piece at an entry: the product times the dropout scale of the entry of the drop_u block. -/
theorem pay4_apply (x : Vec Ideal S4000x128 .f32) (w : Vec Ideal S128x128 .f32) (u : Vec Ideal S4000x128 .f32) (i : S4000x128.Idx) :
    k0_pay4 (F := Ideal) x w u i
      = (∑ k : Fin 128, x (ix2 (i 0) k) * w (ix2 k (i 1))) * Cert.MsgPass.keepKernel κ (u i) := by
  unfold k0_pay4 k0_pay1
  refine (mulf_apply _ _ i).trans ?_
  exact congrArg₂ (· * ·) (matmul_zero_rows _ _ i) rfl

/-- Rows 4000·b … 4000·b + 3999 of the three products side by side, as a function of the block's own index. -/
def wideBlock (A0 : Cert.MsgPass.Nodes.Idx → EReal) (A1 A2 A3 : Cert.MsgPass.Wts.Idx → EReal) (A4 : Cert.MsgPass.Nodes.Idx → EReal)
    (b : Nat) (hb : b < 25) : S4000x384.Idx → EReal := fun y =>
  Cert.MsgPass.wide κ A0 A1 A2 A3 A4
    (ix2 (⟨b * 4000 + (y 0).val, by have := idx2_lt0 y; omega⟩ : Fin 100000) (⟨(y 1).val, idx2_lt1 y⟩ : Fin 384))

section Pieces
variable (A0 : Cert.MsgPass.Nodes.Idx → EReal) (A1 A2 A3 : Cert.MsgPass.Wts.Idx → EReal) (A4 : Cert.MsgPass.Nodes.Idx → EReal)
  (x0 : Vec Ideal S4000x128 .f32) (x1 x2 x3 : Vec Ideal S128x128 .f32) (x4 : Vec Ideal S4000x128 .f32)
  (b : Nat) (hb : b < 25)

/-- Columns 0–127 of the block: the first piece. -/
theorem piece_band0
    (h0 : ∀ (p : Fin 4000) (k : Fin 128) (r : Fin 100000), r.val = b * 4000 + p.val → x0 (ix2 p k) = A0 (ix2 r k))
    (h1 : ∀ (k q : Fin 128), x1 (ix2 k q) = A1 (ix2 k q))
    (x : S4000x128.Idx) (y : S4000x384.Idx) (hy0 : (y 0).val = (x 0).val) (hy1 : (y 1).val = (x 1).val) :
    k0_pay2 (F := Ideal) x0 x1 x = wideBlock A0 A1 A2 A3 A4 b hb y := by
  have hx0 := idx2_lt0 x
  have hx1 := idx2_lt1 x
  rw [pay2_apply]
  unfold wideBlock
  have hidx : (ix2 (⟨b * 4000 + (y 0).val, by have := idx2_lt0 y; omega⟩ : Fin 100000) (⟨(y 1).val, idx2_lt1 y⟩ : Fin 384))
      = ix2 (⟨b * 4000 + (x 0).val, by omega⟩ : Fin 100000) (⟨(⟨(x 1).val, hx1⟩ : Fin 128).val, by omega⟩ : Fin 384) := by
    funext a
    match a with
    | ⟨0, _⟩ => exact Fin.ext (by show b * 4000 + (y 0).val = b * 4000 + (x 0).val; omega)
    | ⟨1, _⟩ => exact Fin.ext (by show (y 1).val = (x 1).val; omega)
  rw [hidx, Cert.MsgPass.wide_band0]
  unfold Cert.MsgPass.rowsMul
  refine Finset.sum_congr rfl fun k _ => ?_
  exact congrArg₂ (· * ·) (h0 ⟨(x 0).val, hx0⟩ k _ rfl) (h1 k ⟨(x 1).val, hx1⟩)

/-- Columns 128–255 of the block: the second piece. -/
theorem piece_band1
    (h0 : ∀ (p : Fin 4000) (k : Fin 128) (r : Fin 100000), r.val = b * 4000 + p.val → x0 (ix2 p k) = A0 (ix2 r k))
    (h2 : ∀ (k q : Fin 128), x2 (ix2 k q) = A2 (ix2 k q))
    (x : S4000x128.Idx) (y : S4000x384.Idx) (hy0 : (y 0).val = (x 0).val) (hy1 : (y 1).val = (x 1).val + 128) :
    k0_pay3 (F := Ideal) x0 x2 x = wideBlock A0 A1 A2 A3 A4 b hb y := by
  have hx0 := idx2_lt0 x
  have hx1 := idx2_lt1 x
  rw [pay3_apply]
  unfold wideBlock
  have hidx : (ix2 (⟨b * 4000 + (y 0).val, by have := idx2_lt0 y; omega⟩ : Fin 100000) (⟨(y 1).val, idx2_lt1 y⟩ : Fin 384))
      = ix2 (⟨b * 4000 + (x 0).val, by omega⟩ : Fin 100000) (⟨(⟨(x 1).val, hx1⟩ : Fin 128).val + 128, by omega⟩ : Fin 384) := by
    funext a
    match a with
    | ⟨0, _⟩ => exact Fin.ext (by show b * 4000 + (y 0).val = b * 4000 + (x 0).val; omega)
    | ⟨1, _⟩ => exact Fin.ext (by show (y 1).val = (x 1).val + 128; omega)
  rw [hidx, Cert.MsgPass.wide_band1]
  unfold Cert.MsgPass.rowsMul
  refine Finset.sum_congr rfl fun k _ => ?_
  exact congrArg₂ (· * ·) (h0 ⟨(x 0).val, hx0⟩ k _ rfl) (h2 k ⟨(x 1).val, hx1⟩)

/-- Columns 256–383 of the block: the third piece, the product scaled entry by entry. -/
theorem piece_band2
    (h0 : ∀ (p : Fin 4000) (k : Fin 128) (r : Fin 100000), r.val = b * 4000 + p.val → x0 (ix2 p k) = A0 (ix2 r k))
    (h3 : ∀ (k q : Fin 128), x3 (ix2 k q) = A3 (ix2 k q))
    (h4 : ∀ (p : Fin 4000) (k : Fin 128) (r : Fin 100000), r.val = b * 4000 + p.val → x4 (ix2 p k) = A4 (ix2 r k))
    (x : S4000x128.Idx) (y : S4000x384.Idx) (hy0 : (y 0).val = (x 0).val) (hy1 : (y 1).val = (x 1).val + 256) :
    k0_pay4 (F := Ideal) x0 x3 x4 x = wideBlock A0 A1 A2 A3 A4 b hb y := by
  have hx0 := idx2_lt0 x
  have hx1 := idx2_lt1 x
  rw [pay4_apply]
  unfold wideBlock
  have hidx : (ix2 (⟨b * 4000 + (y 0).val, by have := idx2_lt0 y; omega⟩ : Fin 100000) (⟨(y 1).val, idx2_lt1 y⟩ : Fin 384))
      = ix2 (⟨b * 4000 + (x 0).val, by omega⟩ : Fin 100000) (⟨(⟨(x 1).val, hx1⟩ : Fin 128).val + 256, by omega⟩ : Fin 384) := by
    funext a
    match a with
    | ⟨0, _⟩ => exact Fin.ext (by show b * 4000 + (y 0).val = b * 4000 + (x 0).val; omega)
    | ⟨1, _⟩ => exact Fin.ext (by show (y 1).val = (x 1).val + 256; omega)
  rw [hidx, Cert.MsgPass.wide_band2]
  unfold Cert.MsgPass.rowsMul
  refine congrArg₂ (· * ·) (Finset.sum_congr rfl fun k _ => ?_) ?_
  · exact congrArg₂ (· * ·) (h0 ⟨(x 0).val, hx0⟩ k _ rfl) (h3 k ⟨(x 1).val, hx1⟩)
  · exact congrArg (Cert.MsgPass.keepKernel κ) ((congrArg x4 (eq_ix2 x)).trans (h4 ⟨(x 0).val, hx0⟩ ⟨(x 1).val, hx1⟩ _ rfl))

theorem zero_offsets : (![0, 0] : Fin 2 → Nat) = fun _ => 0 := funext fun a => by fin_cases a <;> rfl

/-- The staging buffer after the body is that function of the block index: each of the three pieces is its
    rectangle's part of it, and the three rectangles cover the block. -/
theorem staged_block
    (h0 : ∀ (p : Fin 4000) (k : Fin 128) (r : Fin 100000), r.val = b * 4000 + p.val → x0 (ix2 p k) = A0 (ix2 r k))
    (h1 : ∀ (k q : Fin 128), x1 (ix2 k q) = A1 (ix2 k q))
    (h2 : ∀ (k q : Fin 128), x2 (ix2 k q) = A2 (ix2 k q))
    (h3 : ∀ (k q : Fin 128), x3 (ix2 k q) = A3 (ix2 k q))
    (h4 : ∀ (p : Fin 4000) (k : Fin 128) (r : Fin 100000), r.val = b * 4000 + p.val → x4 (ix2 p k) = A4 (ix2 r k))
    (y : S4000x384.Idx) :
    out0_5 (F := Ideal) x0 x1 x2 x3 x4 y = wideBlock A0 A1 A2 A3 A4 b hb y := by
  unfold out0_5
  simp only [View.ld_unit_zero (S := S4000x128) zero_offsets, View.ld_unit_zero (S := S128x128) zero_offsets]
  refine View.canon_apply_of_pieces (Val := Elt Ideal) (e := .f32) (wideBlock A0 A1 A2 A3 A4 b hb) _ ?_ y (cover0_5 _ _ _ y)
  intro p hp x
  simp only [List.mem_cons, List.mem_singleton, List.not_mem_nil, or_false] at hp
  rcases hp with rfl | rfl | rfl
  · exact piece_band2 A0 A1 A2 A3 A4 x0 x3 x4 b hb h0 h3 h4 x _ (by show 0 + 1 * (x 0).val = (x 0).val; omega) (by show 256 + 1 * (x 1).val = (x 1).val + 256; omega)
  · exact piece_band1 A0 A1 A2 A3 A4 x0 x2 b hb h0 h2 x _ (by show 0 + 1 * (x 0).val = (x 0).val; omega) (by show 128 + 1 * (x 1).val = (x 1).val + 128; omega)
  · exact piece_band0 A0 A1 A2 A3 A4 x0 x1 b hb h0 h1 x _ (by show 0 + 1 * (x 0).val = (x 0).val; omega) (by show 0 + 1 * (x 1).val = (x 1).val; omega)

end Pieces

/-- The printed index maps, decided over the 25 grid points: x, drop_u and the result move one block of rows per
    point, the weights stay. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the three products of the arrays as the call finds them. -/
theorem flushed_eq (c : Dev nD) (t : Fin cfg0.N) :
    (dat0 (F := Ideal) V c).flushed 5 t = ((cfg0.win 5).blk t).view.read (Elt Ideal)
      (Cert.MsgPass.wide κ (V c main_arg0) (V c main_arg1) (V c main_arg2) (V c main_arg3) (V c main_arg4)) := by
  show (cfg0.win 5).cut (grid0.coords t) ((dat0 (F := Ideal) V c).after 5 t) = _
  rw [after0_5]
  obtain ⟨e00, e01, e10, e11, e20, e21, e30, e31, e40, e41, e50, e51⟩ := block_index t
  have ht : t.val < 25 := Nat.lt_of_lt_of_eq t.isLt N_0
  funext j
  show out0_5 (F := Ideal) (iblk0 V c 0 t) (iblk0 V c 1 t) (iblk0 V c 2 t) (iblk0 V c 3 t) (iblk0 V c 4 t) j
    = Cert.MsgPass.wide κ (V c main_arg0) (V c main_arg1) (V c main_arg2) (V c main_arg3) (V c main_arg4) (((cfg0.win 5).blk t).view.emb j)
  refine (staged_block (V c main_arg0) (V c main_arg1) (V c main_arg2) (V c main_arg3) (V c main_arg4) _ _ _ _ _ t.val ht ?_ ?_ ?_ ?_ ?_ j).trans ?_
  · intro p k r hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 4000 + 1 * p.val = r.val; rw [e00, hr]; omega
    | ⟨1, _⟩ => show win0_0.index t (1 : Fin 2) * 128 + 1 * k.val = k.val; rw [e01]; omega
  · intro k q
    show V c main_arg1 (((cfg0.win 1).blk t).view.emb (ix2 k q)) = V c main_arg1 (ix2 k q)
    refine congrArg _ (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  · intro k q
    show V c main_arg2 (((cfg0.win 2).blk t).view.emb (ix2 k q)) = V c main_arg2 (ix2 k q)
    refine congrArg _ (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  · intro k q
    show V c main_arg3 (((cfg0.win 3).blk t).view.emb (ix2 k q)) = V c main_arg3 (ix2 k q)
    refine congrArg _ (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = q.val; rw [e31]; omega
  · intro p k r hr
    show V c main_arg4 (((cfg0.win 4).blk t).view.emb (ix2 p k)) = V c main_arg4 (ix2 r k)
    refine congrArg _ (funext fun a => Fin.ext ?_)
    match a with
    | ⟨0, _⟩ => show win0_4.index t (0 : Fin 2) * 4000 + 1 * p.val = r.val; rw [e40, hr]; omega
    | ⟨1, _⟩ => show win0_4.index t (1 : Fin 2) * 128 + 1 * k.val = k.val; rw [e41]; omega
  · unfold wideBlock
    refine congrArg _ (funext fun a => Fin.ext ?_)
    match a with
    | ⟨0, _⟩ => show t.val * 4000 + (j 0).val = win0_5.index t (0 : Fin 2) * 4000 + 1 * (j 0).val; rw [e50]; omega
    | ⟨1, _⟩ => show (j 1).val = win0_5.index t (1 : Fin 2) * 384 + 1 * (j 1).val; rw [e51]; omega

/-- An index of the result array is in point `t`'s block iff each coordinate is in the block's range on its axis. -/
theorem mem_blk (t : Fin cfg0.N) (i : S100000x384.Idx) :
    i ∈ ((cfg0.win 5).blk t).view.set ↔ ∀ a : Fin 2, win0_5.index t a * S4000x384.size a ≤ (i a).val ∧ (i a).val < win0_5.index t a * S4000x384.size a + S4000x384.size a := by
  show i ∈ ((View.whole main_v0).slice (win0_5.rect t)).set ↔ _
  rw [View.set_slice_whole, Rect.mem_set_unit]
  exact Iff.rfl

/-- The 25 blocks cover the array: row `r` is in the block of point `r / 4000`. -/
theorem covered (i : S100000x384.Idx) :
    ∃ t : Fin cfg0.N, (cfg0.win 5).flush t = true ∧ i ∈ ((cfg0.win 5).blk t).view.set := by
  have hi0 : (i 0).val < 100000 := idx2_lt0 i
  have hi1 : (i 1).val < 384 := idx2_lt1 i
  have hN : cfg0.N = 25 := N_0
  have hq : (i 0).val / 4000 < cfg0.N := by rw [hN]; omega
  obtain ⟨-, -, -, -, -, -, -, -, -, -, e50, e51⟩ := block_index ⟨(i 0).val / 4000, hq⟩
  refine ⟨⟨(i 0).val / 4000, hq⟩, flush0_5 _, ?_⟩
  rw [mem_blk]
  intro a
  match a with
  | ⟨0, _⟩ =>
    show win0_5.index ⟨(i 0).val / 4000, hq⟩ (0 : Fin 2) * 4000 ≤ (i 0).val ∧ (i 0).val < win0_5.index ⟨(i 0).val / 4000, hq⟩ (0 : Fin 2) * 4000 + 4000
    rw [e50]
    show (i 0).val / 4000 * 4000 ≤ (i 0).val ∧ (i 0).val < (i 0).val / 4000 * 4000 + 4000
    omega
  | ⟨1, _⟩ =>
    show win0_5.index ⟨(i 0).val / 4000, hq⟩ (1 : Fin 2) * 384 ≤ (i 1).val ∧ (i 1).val < win0_5.index ⟨(i 0).val / 4000, hq⟩ (1 : Fin 2) * 384 + 384
    rw [e51]
    omega

/-- THE ARRAY after the call: the three products side by side, whatever the region found in the output array. -/
theorem final0 (c : Dev nD) :
    (dat0 (F := Ideal) V c).arrAt 5 cfg0.N
      = Cert.MsgPass.wide κ (V c main_arg0) (V c main_arg1) (V c main_arg2) (V c main_arg3) (V c main_arg4) :=
  (dat0 (F := Ideal) V c).arrAt_eq_of_cover 5 _ (fun t _ => flushed_eq V c t) covered

end Cert.KernelIdeal.Region0

end
-- ==== Proof.Region1.lean ====
/-
  The second call's result array, as one function of the three arrays it reads.

  Grid point t (of 20) stages rows 5000·t … 5000·t + 4999 of the two aggregates and of the self-loop term, and its body
  stores max((a1 + a2) + s, 0) entry by entry (the shape casts are to the same shape: the identity). The 20 blocks
  tile the 100000 × 128 array, so the array after the call is that function of the three arrays, index by index.
-/
import proofs.«176956_j206158430367_1_alg».proof.Proof.Gen.KernelIdeal.Frame
import proofs.«176956_j206158430367_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the TensorCore's buffer contents when the call is entered
variable (V : (c : Dev nD) → (b : Ref sig .tc) → Buf (Elt Ideal) ((c : Thread nD τ).loc b))

/-- The zero offsets of the whole-block rectangle, as a constant function. -/
theorem zero_offsets : (![0, 0] : Fin 2 → Nat) = fun _ => 0 := funext fun a => by fin_cases a <;> rfl

/-- The printed index maps over the 20 grid points: every window's block index is (t, 0). -/
theorem block_index : ∀ t : Fin cfg1.N,
    win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = win1_3.index t (1 : Fin 2)
    ∧ win1_3.index t (0 : Fin 2) = t.val
    ∧ win1_3.index t (1 : Fin 2) = 0 :=
  (by decide +kernel : ∀ t : Fin grid1.N, _)

/-- The payload, entry by entry: the three blocks added in the stated grouping, then the maximum with the literal zero. -/
theorem payload_apply (a b s : Vec Ideal S5000x128 .f32) (j : S5000x128.Idx) :
    k1_pay1 a b s j = max ((a j + b j) + s j) (Ideal.ofBits .f32 0x00000000#32) := by
  unfold k1_pay1
  simp only [shapeCast_self]
  rfl

/-- So where the three blocks hold the arrays' entries at an index, the payload holds the combined entry there. -/
theorem payload_eq_combine (A B S : Cert.MsgPass.Nodes.Idx → EReal) (a b s : Vec Ideal S5000x128 .f32)
    (j : S5000x128.Idx) (i : Cert.MsgPass.Nodes.Idx) (ha : a j = A i) (hb : b j = B i) (hs : s j = S i) :
    k1_pay1 a b s j = Cert.MsgPass.combine A B S i := by
  rw [payload_apply, ha, hb, hs]
  rfl

/-- WHAT POINT `t` WRITES BACK is block `t` of the combined array: each input block sits at the same rows as the output's. -/
theorem flushed_eq (c : Dev nD) (t : Fin cfg1.N) :
    (dat1 (F := Ideal) V c).flushed 3 t
      = ((cfg1.win 3).blk t).view.read (Elt Ideal)
          (Cert.MsgPass.combine (V c main_v20) (V c main_v23) (V c main_v3)) := by
  show (cfg1.win 3).cut (grid1.coords t) ((dat1 (F := Ideal) V c).after 3 t) = _
  rw [after1_3]
  unfold out1_3
  rw [View.canon_unit_zero zero_offsets]
  simp only [View.ld_unit_zero (S := S5000x128) zero_offsets]
  obtain ⟨e0, e1, e2, e3, e4, e5, e6, e7⟩ := block_index t
  funext j
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; rw [e0]
    | ⟨1, _⟩ => show win1_0.index t (1 : Fin 2) * 128 + 1 * (j 1).val = win1_3.index t (1 : Fin 2) * 128 + 1 * (j 1).val; rw [e1]
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; rw [e2]
    | ⟨1, _⟩ => show win1_1.index t (1 : Fin 2) * 128 + 1 * (j 1).val = win1_3.index t (1 : Fin 2) * 128 + 1 * (j 1).val; rw [e3]
  have h2 : ((cfg1.win 2).blk t).view.emb j = ((cfg1.win 3).blk t).view.emb j := by
    funext a; apply Fin.ext
    match a with
    | ⟨0, _⟩ => show win1_2.index t (0 : Fin 2) * 5000 + 1 * (j 0).val = win1_3.index t (0 : Fin 2) * 5000 + 1 * (j 0).val; rw [e4]
    | ⟨1, _⟩ => show win1_2.index t (1 : Fin 2) * 128 + 1 * (j 1).val = win1_3.index t (1 : Fin 2) * 128 + 1 * (j 1).val; rw [e5]
  refine payload_eq_combine (V c main_v20) (V c main_v23) (V c main_v3) _ _ _ j (((cfg1.win 3).blk t).view.emb j) ?_ ?_ ?_
  · show V c main_v20 (((cfg1.win 0).blk t).view.emb j) = V c main_v20 (((cfg1.win 3).blk t).view.emb j)
    rw [h0]
  · show V c main_v23 (((cfg1.win 1).blk t).view.emb j) = V c main_v23 (((cfg1.win 3).blk t).view.emb j)
    rw [h1]
  · show V c main_v3 (((cfg1.win 2).blk t).view.emb j) = V c main_v3 (((cfg1.win 3).blk t).view.emb j)
    rw [h2]

/-- An index of the array is in point `t`'s block iff each coordinate is in the block's range on its axis. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v24).slice (win1_3.rect t)).set ↔ _
  rw [View.set_slice_whole, Rect.mem_set_unit]
  exact Iff.rfl

/-- Row `r` lies in the block of point `r / 5000`: the 20 blocks tile the array. -/
theorem blocks_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5, e6, e7⟩ := block_index t
  have e6' : win1_3.index t (0 : Fin 2) = (i 0).val / 5000 := e6
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY after the call: entry by entry the maximum of `(a1 + a2) + s` and the literal zero. -/
theorem final1 (c : Dev nD) :
    (dat1 (F := Ideal) V c).arrAt 3 cfg1.N
      = Cert.MsgPass.combine (V c main_v20) (V c main_v23) (V c main_v3) :=
  (dat1 (F := Ideal) V c).arrAt_eq_of_cover 3
    (Cert.MsgPass.combine (V c main_v20) (V c main_v23) (V c main_v3))
    (fun t _ => flushed_eq V c t) blocks_cover

end Cert.KernelIdeal.Region1

end
-- ==== Proof.KernelTerm.lean ====
/-
  The kernel's result, named as one function of the seven argument arrays.

  Two aggregates and a self-loop term, combined entry by entry as max ((agg1 + agg2) + self, 0):
  * agg1 scatter-adds, at the receivers, the per-edge messages `x[senders] · W_f`;
  * agg2 scatter-adds, at the senders, the per-edge messages `x[receivers] · W_b`;
  * the self-loop term is `x · W_s` times the kernel's dropout scale of `drop_u`.
  The gather and the scatter-add are the host operations of the program itself, kept as they are printed.
-/
import proofs.«176956_j206158430367_1_alg».proof.KernelIdeal
import proofs.«176956_j206158430367_1_alg».proof.Proof.Gen.KernelIdeal
import proofs.«176956_j206158430367_1_alg».proof.Proof.Spec
import Idealize.ShloMosaic.Lib.ValueIdx

noncomputable section

open scoped BigOperators

namespace Cert.KernelIdeal.Boundary

open Idealize.ShloMosaic Idealize.ShloMosaic.TcCoe Idealize.ShloMosaic.ValueIdx
open Cert.KernelIdeal Cert.KernelIdeal.Gen Cert.MsgPass

/-! ## The host operations between the calls, named -/

/-- The start indices a gather takes: an edge list with its negative entries wrapped by the number of nodes, as an
    `[E, 1]` array. -/
def startIdx (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- The scatter-add of per-edge rows `upd` into an array of zeros, at the rows the edge list `into` names. -/
def scatterSum (into : IVec S600000 32) (upd : FVec Ideal S600000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 into) upd

/-- The per-edge messages: the gathered row of `x` at edge `e`'s endpoint, times the weight. -/
def messages (x : FVec Ideal S100000x128 .f32) (w : FVec Ideal S128x128 .f32) (ends : IVec S600000 32) :
    FVec Ideal S600000x128 .f32 :=
  fun j => ∑ k : Fin 128,
    Host.gather gather_S100000x128_S600000x1_S600000x128_1_0_n_n_0_1_1128 x (startIdx ends) (ix2 (j 0) k) * w (ix2 k (j 1))

/-- THE KERNEL'S RESULT as a function of the seven arguments. -/
def kernelTerm (x : FVec Ideal S100000x128 .f32) (wf wb ws : FVec Ideal S128x128 .f32) (du : FVec Ideal S100000x128 .f32)
    (snd rcv : IVec S600000 32) : FVec Ideal S100000x128 .f32 :=
  combine (scatterSum rcv (messages x wf snd)) (scatterSum snd (messages x wb rcv))
    (fun i => rowsMul x ws i * keepKernel κ (du i))

end Cert.KernelIdeal.Boundary

end
-- ==== Proof.LibGatherRows.lean ====
/-
  Reading a row gather at an index.

  `x[idx]` for a matrix `x : [N, D]` and an integer vector `idx : [E]` (carried as `[E, 1]`) lowers to a
  `stablehlo.gather` with offset axis 1, collapsed axis 0, start index map `[0]`, index vector axis 1 and
  slice sizes `[1, D]`. Its result element `(e, c)` is `x` at row `idx[e]` — read as a signed integer and
  clamped into `[0, N − 1]`, as every start index of a gather is — and column `c`.

  Consequence: gathering rows commutes with any operation that acts on each row by itself. In particular, for
  `f (r, c) = ∑ k, x (r, k) * w (k, c)` (a matrix product on the right), gathering the rows of `f` is the same
  product applied to the gathered rows of `x`: row selection and a per-row linear map commute.
-/
import Idealize.ShloMosaic.PureOps.Ideal
import Idealize.ShloMosaic.Lib.ValueIdx

noncomputable section

open scoped BigOperators

namespace Cert.Lib.GatherRows

open Idealize.ShloMosaic Idealize.ShloMosaic.ValueIdx

variable {α : Type}

/-- The dimension numbers of a row gather: operand `[N, D]`, start indices `[E, 1]`, result `[E, D]`; their
    conditions `wf` are decided on a program's literal shapes. -/
abbrev rowDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row that edge `e` selects: its start index read signed and clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

theorem one_ne_zero_fin2 : (1 : Fin 2) ≠ 0 := by decide

/-- On the row axis the operand index is the clamped start index: axis 0 is collapsed (no offset) and there is no
    batching axis. -/
theorem operand_row {N D E w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowDims N D E wf).operandIdx j idx (0 : Fin 2)).val = (rowOf hN idx (j 0)).val := by
  show (rowDims N D E wf).start j idx (0 : Fin 2) + (rowDims N D E wf).batchCoord j (0 : Fin 2)
    + (rowDims N D E wf).offCoord j (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D E wf).startIndexMap from List.mem_singleton.mpr rfl)]
  have hsi : (rowDims N D E wf).siIdx j ⟨List.idxOf (0 : Fin 2) (rowDims N D E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the operand index is the result's own column: axis 1 is not in the start index map (start 0),
    and it is the one offset axis. -/
theorem operand_col {N D E w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowDims N D E wf).operandIdx j idx (1 : Fin 2)).val = (j 1).val := by
  show (rowDims N D E wf).start j idx (1 : Fin 2) + (rowDims N D E wf).batchCoord j (1 : Fin 2)
    + (rowDims N D E wf).offCoord j (1 : Fin 2) = _
  have hnot : (1 : Fin 2) ∉ (rowDims N D E wf).startIndexMap := fun h => one_ne_zero_fin2 (List.mem_singleton.mp h)
  have hkept : (1 : Fin 2) ∈ (rowDims N D E wf).sKept :=
    (GatherDims.mem_sKept _ _).mpr ⟨fun h => one_ne_zero_fin2 (List.mem_singleton.mp h), List.not_mem_nil⟩
  have hs : (rowDims N D E wf).start j idx (1 : Fin 2) = 0 := by
    unfold GatherDims.start
    rw [dif_neg hnot]
  rw [GatherDims.batchCoord_eq_zero _ _ _ List.not_mem_nil, hs]
  simp only [Nat.zero_add, Nat.add_zero]
  unfold GatherDims.offCoord
  rw [dif_pos hkept]
  rfl

/-- THE ROW GATHER READ AT `(e, c)`: the operand at row `rowOf idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowDims N D E wf) x idx j = x (ix2 (rowOf hN idx (j 0)) (j 1)) := by
  unfold Host.gather
  congr 1
  funext a
  refine Fin.ext ?_
  match a with
  | ⟨0, _⟩ => exact operand_row hN wf idx j
  | ⟨1, _⟩ => exact operand_col wf idx j

/-- Row selection commutes with a per-row linear map: the rows of `r, c ↦ ∑ k, x (r, k) * w (k, c)` gathered at `idx`
    are that same sum over the rows of `x` gathered at `idx`. Nothing is asked of the entries: both sides read the
    same row, so the two sums are the same sum term by term. -/
theorem gather_rows_mul {N D K E w : Nat} [Mul α] [AddCommMonoid α] (hN : 0 < N)
    (wfD : GatherDims.WF ⟨2, ![N, D]⟩ ⟨2, ![E, 1]⟩ ⟨2, ![E, D]⟩ [1] [0] [] [0] [] 1 ![1, D])
    (wfK : GatherDims.WF ⟨2, ![N, K]⟩ ⟨2, ![E, 1]⟩ ⟨2, ![E, K]⟩ [1] [0] [] [0] [] 1 ![1, K])
    (x : (⟨2, ![N, K]⟩ : Shape).Idx → α) (wt : (⟨2, ![K, D]⟩ : Shape).Idx → α) (idx : IVec ⟨2, ![E, 1]⟩ w)
    (j : (⟨2, ![E, D]⟩ : Shape).Idx) :
    Host.gather (rowDims N D E wfD) (fun i : (⟨2, ![N, D]⟩ : Shape).Idx => ∑ k : Fin K, x (ix2 (i 0) k) * wt (ix2 k (i 1))) idx j
      = ∑ k : Fin K, Host.gather (rowDims N K E wfK) x idx (ix2 (j 0) k) * wt (ix2 k (j 1)) := by
  rw [gather_rows_apply hN wfD]
  refine Finset.sum_congr rfl fun k _ => ?_
  rw [gather_rows_apply hN wfK]
  rfl

end Cert.Lib.GatherRows

end
-- ==== Proof.KernelValue.lean ====
/-
  What the kernel's program leaves in its result array, as one function of the seven argument arrays.

  Follow the array contents through the program. The first call leaves `wide` — the three products `x · W_f`,
  `x · W_b` and `x · W_s` times the dropout scale, side by side. The host operations between the calls cut the three
  column bands out of it, gather the rows of the first band at the senders and of the second at the receivers
  (negative indices wrapped by the array's length, then clamped by the gather itself), and scatter-add the gathered
  rows at the receivers and at the senders. The second call adds the two aggregates and the third band and takes the
  maximum with zero.

  Gathering rows of a product `x · W` is the product of the gathered rows of `x` with `W`: both read the same row of
  `x`. So each aggregate is the scatter-add of the per-edge messages `x[from] · W`, which is how the reference
  computes it. The scatter-add itself is never opened: it is the same function on both sides, applied to equal arrays.
-/
import proofs.«176956_j206158430367_1_alg».proof.Proof.KernelRun
import proofs.«176956_j206158430367_1_alg».proof.Proof.Region0
import proofs.«176956_j206158430367_1_alg».proof.Proof.Region1
import proofs.«176956_j206158430367_1_alg».proof.Proof.Spec
import proofs.«176956_j206158430367_1_alg».proof.Proof.KernelTerm
import proofs.«176956_j206158430367_1_alg».proof.Proof.LibGatherRows
import Idealize.ShloMosaic.Lib.StableHlo.Run
import Idealize.ShloMosaic.Lib.Pipeline.Value

set_option maxRecDepth 16384

noncomputable section

open scoped BigOperators

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen Cert.MsgPass

/-! ## The three column bands of the first call's result -/

theorem band0 (x : Nodes.Idx → EReal) (wf wb ws : Wts.Idx → EReal) (du : Nodes.Idx → EReal) :
    extractStridedSlice S100000x128 ![0, 0] (wide κ x wf wb ws du) slices_S100000x384_S100000x128_0_0 = rowsMul x wf := by
  funext j
  obtain ⟨p, q, rfl⟩ : ∃ (p : Fin 100000) (q : Fin 128), j = ix2 p q := ⟨j 0, j 1, eq_ix2 j⟩
  have hq := q.isLt
  refine (extractStridedSlice_apply ![0, 0] _ _ (ix2 p q) (ix2 p (⟨q.val, by omega⟩ : Fin 384)) (fun a => ?_)).trans
    (wide_band0 κ x wf wb ws du p q)
  match a with
  | ⟨0, _⟩ => show p.val = 0 + p.val; omega
  | ⟨1, _⟩ => show q.val = 0 + q.val; omega

theorem band1 (x : Nodes.Idx → EReal) (wf wb ws : Wts.Idx → EReal) (du : Nodes.Idx → EReal) :
    extractStridedSlice S100000x128 ![0, 128] (wide κ x wf wb ws du) slices_S100000x384_S100000x128_0_128 = rowsMul x wb := by
  funext j
  obtain ⟨p, q, rfl⟩ : ∃ (p : Fin 100000) (q : Fin 128), j = ix2 p q := ⟨j 0, j 1, eq_ix2 j⟩
  have hq := q.isLt
  refine (extractStridedSlice_apply ![0, 128] _ _ (ix2 p q) (ix2 p (⟨q.val + 128, by omega⟩ : Fin 384)) (fun a => ?_)).trans
    (wide_band1 κ x wf wb ws du p q)
  match a with
  | ⟨0, _⟩ => show p.val = 0 + p.val; omega
  | ⟨1, _⟩ => show q.val + 128 = 128 + q.val; omega

theorem band2 (x : Nodes.Idx → EReal) (wf wb ws : Wts.Idx → EReal) (du : Nodes.Idx → EReal) :
    extractStridedSlice S100000x128 ![0, 256] (wide κ x wf wb ws du) slices_S100000x384_S100000x128_0_256
      = fun i => rowsMul x ws i * keepKernel κ (du i) := by
  funext j
  obtain ⟨p, q, rfl⟩ : ∃ (p : Fin 100000) (q : Fin 128), j = ix2 p q := ⟨j 0, j 1, eq_ix2 j⟩
  have hq := q.isLt
  refine (extractStridedSlice_apply ![0, 256] _ _ (ix2 p q) (ix2 p (⟨q.val + 256, by omega⟩ : Fin 384)) (fun a => ?_)).trans
    (wide_band2 κ x wf wb ws du p q)
  match a with
  | ⟨0, _⟩ => show p.val = 0 + p.val; omega
  | ⟨1, _⟩ => show q.val + 256 = 256 + q.val; omega

/-! ## Row selection commutes with the product -/

/-- The rows of `x · w` gathered at any start indices are the products of the gathered rows of `x` with `w`
    (at an edge list's wrapped indices: the per-edge messages). -/
theorem gather_rowsMul (x : FVec Ideal S100000x128 .f32) (w : FVec Ideal S128x128 .f32) (idx : IVec S600000x1 32) :
    Host.gather gather_S100000x128_S600000x1_S600000x128_1_0_n_n_0_1_1128 (rowsMul x w) idx
      = fun j => ∑ k : Fin 128,
          Host.gather gather_S100000x128_S600000x1_S600000x128_1_0_n_n_0_1_1128 x idx (ix2 (j 0) k) * w (ix2 k (j 1)) := by
  funext j
  exact Cert.Lib.GatherRows.gather_rows_mul (N := 100000) (D := 128) (K := 128) (E := 600000) (by decide)
    gather_S100000x128_S600000x1_S600000x128_1_0_n_n_0_1_1128.wf gather_S100000x128_S600000x1_S600000x128_1_0_n_n_0_1_1128.wf
    x w idx j

/-! ## The contents at each boundary -/

variable (m : (ℓ : Loc nD τ sig) → Buf (Elt Ideal) ℓ) (ρ : Dev nD → PrngReg)

/-- After the first call its output array holds `wide` of the five arguments it reads. -/
theorem exit0 (c : Dev nD) :
    W1 m ρ c (Proc.devRef .tc main_v0)
      = wide κ (m ((c : Thread nD τ).loc main_arg0)) (m ((c : Thread nD τ).loc main_arg1)) (m ((c : Thread nD τ).loc main_arg2))
          (m ((c : Thread nD τ).loc main_arg3)) (m ((c : Thread nD τ).loc main_arg4)) :=
  (W1_arr m ρ c 5).trans (Cert.KernelIdeal.Region0.final0 (V0 m ρ) c)

/-- The first call leaves the two edge lists as launched. -/
theorem exit0_snd (c : Dev nD) : W1 m ρ c (Proc.devRef .tc main_arg5) = m ((c : Thread nD τ).loc main_arg5) :=
  W1_of_ne m ρ c main_arg5 (by decide)
theorem exit0_rcv (c : Dev nD) : W1 m ρ c (Proc.devRef .tc main_arg6) = m ((c : Thread nD τ).loc main_arg6) :=
  W1_of_ne m ρ c main_arg6 (by decide)

set_option maxHeartbeats 1000000 in
/-- Entering the second call, its first input is the aggregate over receivers of the messages from senders … -/
theorem entry1_agg1 (c : Dev nD) :
    V2 m ρ c main_v20 = scatterSum (m ((c : Thread nD τ).loc main_arg6))
      (messages (m ((c : Thread nD τ).loc main_arg0)) (m ((c : Thread nD τ).loc main_arg1)) (m ((c : Thread nD τ).loc main_arg5))) := by
  suffices h : ∀ X : FVec Ideal S100000x128 .f32,
      scatterSum (m ((c : Thread nD τ).loc main_arg6))
        (messages (m ((c : Thread nD τ).loc main_arg0)) (m ((c : Thread nD τ).loc main_arg1)) (m ((c : Thread nD τ).loc main_arg5))) = X
      → V2 m ρ c main_v20 = X from h _ rfl
  intro X hX
  show StableHlo.after hostOps1 (W1 m ρ c) (Proc.devRef .tc main_v20) = X
  after_results_simp
  rw [exit0, exit0_snd, exit0_rcv, band0, gather_rowsMul]
  exact hX

set_option maxHeartbeats 1000000 in
/-- … its second the aggregate over senders of the messages from receivers … -/
theorem entry1_agg2 (c : Dev nD) :
    V2 m ρ c main_v23 = scatterSum (m ((c : Thread nD τ).loc main_arg5))
      (messages (m ((c : Thread nD τ).loc main_arg0)) (m ((c : Thread nD τ).loc main_arg2)) (m ((c : Thread nD τ).loc main_arg6))) := by
  suffices h : ∀ X : FVec Ideal S100000x128 .f32,
      scatterSum (m ((c : Thread nD τ).loc main_arg5))
        (messages (m ((c : Thread nD τ).loc main_arg0)) (m ((c : Thread nD τ).loc main_arg2)) (m ((c : Thread nD τ).loc main_arg6))) = X
      → V2 m ρ c main_v23 = X from h _ rfl
  intro X hX
  show StableHlo.after hostOps1 (W1 m ρ c) (Proc.devRef .tc main_v23) = X
  after_results_simp
  rw [exit0, exit0_snd, exit0_rcv, band1, gather_rowsMul]
  exact hX

/-- … and its third the self-loop band. -/
theorem entry1_self (c : Dev nD) :
    V2 m ρ c main_v3 = fun i => rowsMul (m ((c : Thread nD τ).loc main_arg0)) (m ((c : Thread nD τ).loc main_arg3)) i
      * keepKernel κ (m ((c : Thread nD τ).loc main_arg4) i) := by
  show StableHlo.after hostOps1 (W1 m ρ c) (Proc.devRef .tc main_v3) = _
  after_results_simp
  rw [exit0, band2]

/-- THE RESULT ARRAY at the last boundary is `kernelTerm` of the launch contents of the seven arguments. -/
theorem result_eq (c : Dev nD) :
    W3 m ρ c (Proc.devRef .tc main_v24)
      = kernelTerm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine ((W3_arr m ρ c 3).trans (Cert.KernelIdeal.Region1.final1 (V2 m ρ) c)).trans ?_
  rw [entry1_agg1, entry1_agg2, entry1_self]
  rfl

/-- THE RUN: every weakly fair execution ends with the result array at `kernelTerm` of the arguments, which end unchanged. -/
theorem run : θ_run defs (onTc (τ := τ) (main (F := Ideal))) ⟨m, fun _ => 0, ρ⟩ (fun r => ∀ c : Dev nD,
      r.2.mem ((c.tc : Thread nD τ).loc main_v24)
        = kernelTerm (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (Cert.KernelIdeal.ValueRun.run_boundary (F := Ideal) m ρ)

end Cert.KernelIdeal.Boundary

end
-- ==== Proof.RefValue.lean ====
/-
  The reference's result is the kernel's function of the arguments.

  The reference gathers the rows of `x` at the senders and at the receivers, multiplies each gathered row by its weight
  (a `dot_general`: entry `(e, c)` is `∑ k, row_e (k) · W (k, c)`), scatter-adds the two message arrays at the receivers
  and at the senders, adds the self-loop term `(x · W_s) · (keep / 0.8)` and takes `relu`, which is the maximum with the
  literal zero. Stage by stage these are the pieces of `kernelTerm`: the per-edge messages, the two scatter-adds (the
  same host operation on both sides, never opened), and the self-loop term, where the reference's quotient by
  `f32(0.8)` is the kernel's product with the named `1 / f32(0.8)` on every extended real.
-/
import proofs.«176956_j206158430367_1_alg».proof.Proof.Gen.ReferenceIdeal.Run
import proofs.«176956_j206158430367_1_alg».proof.Proof.Gen.ReferenceIdeal.Read
import proofs.«176956_j206158430367_1_alg».proof.Proof.KernelTerm
import proofs.«176956_j206158430367_1_alg».proof.Proof.Spec

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.MsgPass
open Cert.KernelIdeal.Boundary (startIdx scatterSum messages kernelTerm)

/-! ## The operands of the two products, as coordinates -/

theorem lidx14 (j : S600000x128.Idx) (k : Fin 128) : lidx_main_v14 j k = ix2 (j 0) k :=
  funext fun a => Fin.ext (by match a with | ⟨0, _⟩ => rfl | ⟨1, _⟩ => rfl)
theorem ridx14 (j : S600000x128.Idx) (k : Fin 128) : ridx_main_v14 j k = ix2 k (j 1) :=
  funext fun a => Fin.ext (by match a with | ⟨0, _⟩ => rfl | ⟨1, _⟩ => rfl)
theorem lidx15 (j : S600000x128.Idx) (k : Fin 128) : lidx_main_v15 j k = ix2 (j 0) k :=
  funext fun a => Fin.ext (by match a with | ⟨0, _⟩ => rfl | ⟨1, _⟩ => rfl)
theorem ridx15 (j : S600000x128.Idx) (k : Fin 128) : ridx_main_v15 j k = ix2 k (j 1) :=
  funext fun a => Fin.ext (by match a with | ⟨0, _⟩ => rfl | ⟨1, _⟩ => rfl)
theorem lidx21 (i : S100000x128.Idx) (k : Fin 128) : lidx_main_v21 i k = ix2 (i 0) k :=
  funext fun a => Fin.ext (by match a with | ⟨0, _⟩ => rfl | ⟨1, _⟩ => rfl)
theorem ridx21 (i : S100000x128.Idx) (k : Fin 128) : ridx_main_v21 i k = ix2 k (i 1) :=
  funext fun a => Fin.ext (by match a with | ⟨0, _⟩ => rfl | ⟨1, _⟩ => rfl)

/-! ## Stage by stage -/

/-- The rows gathered at the senders (at the receivers: the same stage at the other edge list) are the kernel's gather at
    its start indices: the same operations, printed in the two programs. -/
theorem gathered_snd (x0 : FVec Ideal S100000x128 .f32) (x5 : IVec S600000 32) :
    val_main_v6 (F := Ideal) x0 x5
      = Host.gather Cert.KernelIdeal.gather_S100000x128_S600000x1_S600000x128_1_0_n_n_0_1_1128 x0 (startIdx x5) := rfl
theorem gathered_rcv (x0 : FVec Ideal S100000x128 .f32) (x6 : IVec S600000 32) :
    val_main_v13 (F := Ideal) x0 x6
      = Host.gather Cert.KernelIdeal.gather_S100000x128_S600000x1_S600000x128_1_0_n_n_0_1_1128 x0 (startIdx x6) := rfl

/-- The forward messages. -/
theorem messages_fwd (x0 : FVec Ideal S100000x128 .f32) (x1 : FVec Ideal S128x128 .f32) (x5 : IVec S600000 32) :
    val_main_v14 (F := Ideal) x0 x1 x5 = messages x0 x1 x5 := by
  funext j
  rw [val_main_v14_apply, gathered_snd]
  exact Finset.sum_congr rfl fun k _ => by rw [lidx14, ridx14]; rfl

/-- The backward messages. -/
theorem messages_bwd (x0 : FVec Ideal S100000x128 .f32) (x2 : FVec Ideal S128x128 .f32) (x6 : IVec S600000 32) :
    val_main_v15 (F := Ideal) x0 x2 x6 = messages x0 x2 x6 := by
  funext j
  rw [val_main_v15_apply, gathered_rcv]
  exact Finset.sum_congr rfl fun k _ => by rw [lidx15, ridx15]; rfl

/-- The aggregate over receivers. -/
theorem agg_fwd (x0 : FVec Ideal S100000x128 .f32) (x1 : FVec Ideal S128x128 .f32) (x5 x6 : IVec S600000 32) :
    val_main_v25 (F := Ideal) x0 x1 x5 x6 = scatterSum x6 (messages x0 x1 x5) := by
  unfold val_main_v25
  rw [messages_fwd]
  rfl

/-- The aggregate over senders. -/
theorem agg_bwd (x0 : FVec Ideal S100000x128 .f32) (x2 : FVec Ideal S128x128 .f32) (x5 x6 : IVec S600000 32) :
    val_main_v28 (F := Ideal) x0 x2 x5 x6 = scatterSum x5 (messages x0 x2 x6) := by
  unfold val_main_v28
  rw [messages_bwd]
  rfl

/-- The certificate's table gives the kernel's folded reciprocal the value `1 / f32(0.8)`. -/
theorem table_inv_keep : Cert.KernelIdeal.κ "inv_keep" = some ((16777216 / 13421773 : ℝ) : EReal) := rfl

/-- The self-loop term: the product with `W_s`, times the keep bit over the literal `0.8` — the kernel's dropout scale. -/
theorem self_loop (x0 : FVec Ideal S100000x128 .f32) (x3 : FVec Ideal S128x128 .f32) (x4 : FVec Ideal S100000x128 .f32) :
    val_main_v22 (F := Ideal) x0 x3 x4 = fun i => rowsMul x0 x3 i * keepKernel Cert.KernelIdeal.κ (x4 i) := by
  funext i
  rw [val_main_v22_apply, val_main_v21_apply, keep_eq _ table_inv_keep]
  refine congrArg₂ (· * ·) (Finset.sum_congr rfl fun k _ => by rw [lidx21, ridx21]; rfl) ?_
  rfl

/-- THE REFERENCE'S LAST STAGE is the kernel's function of the seven arguments. -/
theorem stage_eq (x0 : FVec Ideal S100000x128 .f32) (x1 x2 x3 : FVec Ideal S128x128 .f32) (x4 : FVec Ideal S100000x128 .f32)
    (x5 x6 : IVec S600000 32) :
    val_main_v31 (F := Ideal) x0 x1 x2 x3 x4 x5 x6 = kernelTerm x0 x1 x2 x3 x4 x5 x6 := by
  funext i
  rw [val_main_v31_apply, val_main_v30_apply, val_main_v29_apply, agg_fwd, agg_bwd, self_loop]
  rfl

end Cert.ReferenceIdeal.RefValue

end
-- ==== Proof.lean ====
/-
  Message passing on a graph of 100000 nodes and 600000 edges, 128 features: the kernel's program against its reference,
  over the extended reals.

  Both programs compute, entry by entry,
      max ( (agg1 + agg2) + self , 0 )
  where agg1 scatter-adds the messages `x[senders] · W_f` at the receivers, agg2 scatter-adds the messages
  `x[receivers] · W_b` at the senders, and self is `(x · W_s)` times the inverted-dropout scale of `drop_u`.

  The reference gathers rows first and multiplies afterwards. The kernel multiplies all 100000 rows once, in its first
  call (three products side by side, the third already scaled), lets the host gather rows of the products, and adds and
  clamps in its second call. The two agree because selecting a row commutes with multiplying each row by a matrix:
  row `s` of `x · W` is `(row s of x) · W`. No finiteness of the inputs is used: both sides are the same sums of the same
  products, term by term, and the scatter-add is the same host operation applied to equal arrays.

  The dropout scale is where the two programs spell a number differently: the reference divides the keep bit by the
  literal `f32(0.8)`; the kernel multiplies it by its folded reciprocal, which the certificate's table names as exactly
  `1 / f32(0.8)` = 16777216 / 13421773. Division by a nonzero real is the product with its reciprocal on every extended
  real, so the scales are one number; that the printed constant is the named value is the one entry of `preserves`.

  The three frames: the two kernel programs' are the generated frame certificates; the reference's is its generated run
  with the result dropped.
-/
import proofs.«176956_j206158430367_1_alg».proof.Defs
import proofs.«176956_j206158430367_1_alg».proof.Proof.Gen.Kernel
import proofs.«176956_j206158430367_1_alg».proof.Proof.Gen.Kernel.Frame
import proofs.«176956_j206158430367_1_alg».proof.Proof.Gen.KernelIdeal
import proofs.«176956_j206158430367_1_alg».proof.Proof.Gen.KernelIdeal.Frame
import proofs.«176956_j206158430367_1_alg».proof.Proof.Gen.ReferenceIdeal
import proofs.«176956_j206158430367_1_alg».proof.Proof.Gen.ReferenceIdeal.Run
import proofs.«176956_j206158430367_1_alg».proof.Proof.Gen.ReferenceIdeal.Read
import proofs.«176956_j206158430367_1_alg».proof.Proof.Gen.Pre_finite_inputs
import proofs.«176956_j206158430367_1_alg».proof.Proof.KernelValue
import proofs.«176956_j206158430367_1_alg».proof.Proof.RefValue
import Idealize.ShloMosaic.Adequacy
import Idealize.ShloMosaic.Init

noncomputable section

namespace Cert.Proof

open Idealize.ShloMosaic Idealize.SL.Sem

/-- The word-level kernel program runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the table gives `"inv_keep"` the value 16777216 / 13421773 = 1 / f32(0.8), and
    the printed constant is that value at the ideal instance. -/
theorem preserves : Cert.preserves_Kernel_KernelIdeal :=
  IdealRules.named_const.statement Cert.KernelIdeal.κ "inv_keep" .f32 0x3FA00000#32 ((16777216 / 13421773 : ℝ) : EReal) rfl

/-- From memories agreeing on the seven arguments both programs end with the result array at the same function of the
    arguments: the kernel's by following the contents through its two calls, the reference's stage by stage. -/
theorem algebraic : Cert.algebraic_KernelIdeal_ReferenceIdeal := by
  intro m ρ m' ρ' _ hagree
  refine ⟨_, Cert.KernelIdeal.Boundary.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.stage_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
